-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S256x256 : Shape := ⟨2, ![256, 256]⟩
abbrev S256 : Shape := ⟨1, ![256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S524288x256 .f32) (main_arg1 : FVec F S256x256 .f32) (main_arg2 : FVec F S256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S524288x256 : Shape := ⟨2, ![524288, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S8192x256 : Shape := ⟨2, ![8192, 256]⟩

abbrev nBuf : Space → Nat
  | .hbm => 42
  | .vmem => 6
  | .smem => 0
  | _ => 0

abbrev bufTy : (tb : Table) → Fin (tcTables nBuf tb) → BufTy
  | .hbm, ⟨0, _⟩ => ⟨S524288x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256x256, .f32⟩
  | .hbm, ⟨40, _⟩ => ⟨S1x256, .f32⟩
  | .hbm, ⟨41, _⟩ => ⟨S524288x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_cst_6 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x256_S_d0_1 : S256x256.ReducesTo [0, 1] S_
  h_S_ : 0 < S_.numel
  bcast_S_S256x256 : S_.BroadcastsInDim S256x256 (![] : Fin 0 → Fin S256x256.rank)
  reducesTo_S256_S_d0 : S256.ReducesTo [0] S_
  bcast_S_S256 : S_.BroadcastsInDim S256 (![] : Fin 0 → Fin S256.rank)
  transposes_S256x256_S256x256_1_0 : S256x256.Transposes [1, 0] S256x256
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .f32 = 32 ∨ (Rect.block (s := S524288x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S524288x256.size a
  hwx0_3 : ∀ i : grid0.Coords, EltTy.bits .f32 = 32 ∨ (Rect.block (s := S524288x256) S8192x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x256 : Shape := ⟨2, ![524288, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S524288x256, .f32⟩
  | .hbm, ⟨44, _⟩ => ⟨S1x256, .f32⟩
  | .hbm, ⟨45, _⟩ => ⟨S524288x256, .f32⟩
  | .hbm, ⟨46, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  reducesTo_S256x256_S_d0_1 : S256x256.ReducesTo [0, 1] S_
  h_S_ : 0 < S_.numel
  bcast_S_S256x256 : S_.BroadcastsInDim S256x256 (![] : Fin 0 → Fin S256x256.rank)
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  dot_S524288x256_S256x256_S524288x256_1_1_0_0_n_n_wf : DotDims.WF S524288x256 S256x256 S524288x256 [1] [1] [0] [0] [] []

variable [Facts₀]

def dot_S524288x256_S256x256_S524288x256_1_1_0_0_n_n : DotDims S524288x256 S256x256 S524288x256 where
  lhsContracting := [1]
  rhsContracting := [1]
  lhsNonContracting := [0]
  rhsNonContracting := [0]
  lhsBatch := []
  rhsBatch := []
  wf := dot_S524288x256_S256x256_S524288x256_1_1_0_0_n_n_wf

class Facts : Prop extends Facts₀ where

variable [Facts]
-- ==== Proof.Spec.lean ====
/-
  The value both programs compute, stated once over the literal shapes, and the two facts about the extended
  reals the comparison needs.

  With `x` the [524288, 256] activations, `q` a [256, 256] matrix stored output-major (row o holds the weights of
  output o) and `qb` a length-256 vector, the linear layer's result at (r, o) is
      (the sum over k of x(r, k) · q(o, k)) + qb(o).
  The reference reaches its quantized operands through the straight-through form t + (q − t); on the extended
  reals that is q as soon as t is a real number (for q = +inf or −inf both sides are that infinity), and it is
  the only place where the inputs' finiteness is used.
-/
import Idealize.ShloMosaic.PureOps.Ideal
import Idealize.ShloMosaic.Lib.ValueIdx

noncomputable section

open scoped BigOperators

namespace Cert.QLinear

open Idealize.ShloMosaic Idealize.ShloMosaic.ValueIdx

/-- The activations' shape, the weights' shape, the bias's shape. -/
abbrev SX : Shape := ⟨2, ![524288, 256]⟩
abbrev SW : Shape := ⟨2, ![256, 256]⟩
abbrev SB : Shape := ⟨1, ![256]⟩

/-- The linear layer over an output-major weight matrix: entry (r, o) is the inner product of row r of `x` with
    row o of `q`, plus `qb` at o. -/
def linearOut (x : SX.Idx → EReal) (q : SW.Idx → EReal) (qb : SB.Idx → EReal) : SX.Idx → EReal :=
  fun i => (∑ k : Fin 256, x (ix2 (i 0) k) * q (ix2 (i 1) k)) + qb (ix1 (i 1))

/-- The linear layer at the entry (r, o). -/
theorem linearOut_at (x : SX.Idx → EReal) (q : SW.Idx → EReal) (qb : SB.Idx → EReal) (r : Fin 524288) (o : Fin 256) :
    linearOut x q qb (ix2 r o) = (∑ k : Fin 256, x (ix2 r k) * q (ix2 o k)) + qb (ix1 o) := rfl

/-- The straight-through form collapses: for a real `t` and any extended real `q`, t + (q − t) = q. -/
theorem add_sub_cancel_of_real (t q : EReal) (ht : t ≠ ⊤) (hb : t ≠ ⊥) : t + (q - t) = q := by
  lift t to ℝ using ⟨ht, hb⟩
  induction q using EReal.rec with
  | bot => rw [EReal.bot_sub, EReal.add_bot]
  | top => rw [EReal.top_sub_coe, EReal.coe_add_top]
  | coe q => norm_cast; ring

/-- An extended real whose absolute value is below +inf is a real number: it is neither infinity. -/
theorem real_of_abs_lt_top (x : EReal) (h : max x (-x) < ⊤) : x ≠ ⊤ ∧ x ≠ ⊥ := by
  refine ⟨fun e => ?_, fun e => ?_⟩
  · subst e; simp at h
  · subst e; simp at h

end Cert.QLinear

end
-- ==== Proof.Finite.lean ====
/-
  From the precondition to real numbers. The precondition is the conjunction of three tests "every entry of the
  array has absolute value below +inf", one per input; read at the extended reals, the tests on the weight and
  on the bias say that every entry of those two arrays is a real number.
-/
import proofs.«121457_j55851754717325_1_alg».proof.Pre_finite_inputs
import proofs.«121457_j55851754717325_1_alg».proof.Proof.Gen.Pre_finite_inputs
import proofs.«121457_j55851754717325_1_alg».proof.Proof.Spec
import Idealize.ShloMosaic.PureOps.Ideal.Laws
import Idealize.ShloMosaic.Lib.ReduceAll
import Idealize.ShloMosaic.Lib.ValueIdx

noncomputable section

namespace Cert.QLinear

open Idealize.ShloMosaic Idealize.ShloMosaic.ValueIdx Cert.Pre_finite_inputs

instance : Subsingleton Cert.Pre_finite_inputs.S_.Idx := ⟨fun a b => funext fun d => d.elim0⟩

/-- One entry's test: "|v| < the f32 pattern of +inf" holding means v is a real number. -/
theorem real_of_test (v : EReal)
    (h : Ideal.cmp .olt (max v (-v)) (Ideal.ofBits .f32 0x7F800000#32) = 1#1) : v ≠ ⊤ ∧ v ≠ ⊥ := by
  have htop : Ideal.ofBits .f32 0x7F800000#32 = ⊤ := by simp [Ideal.ofBits, Ideal.ieee]
  rw [htop] at h
  refine real_of_abs_lt_top v ?_
  unfold Ideal.cmp at h
  by_contra hn
  simp [hn] at h

/-- Under the precondition every entry of the weight and of the bias is a real number. -/
theorem real_of_pre (x : FVec Ideal S524288x256 .f32) (w : FVec Ideal S256x256 .f32) (b : FVec Ideal S256 .f32)
    (h : Cert.Pre_finite_inputs.fn (F := Ideal) x w b = fun _ => 1#1) :
    (∀ i, w i ≠ ⊤ ∧ w i ≠ ⊥) ∧ (∀ i, b i ≠ ⊤ ∧ b i ≠ ⊥) := by
  have h0 := congrFun h ix0
  dsimp only [Cert.Pre_finite_inputs.fn] at h0
  obtain ⟨hxw, hb⟩ := IntOp.andi_eq_one.1 h0
  obtain ⟨-, hw⟩ := IntOp.andi_eq_one.1 hxw
  refine ⟨fun i => ?_, fun i => ?_⟩
  · have e := Host.reduce_andi_all _ _ _ _ _ hw i
    exact real_of_test (w i) e
  · have e := Host.reduce_andi_all _ _ _ _ _ hb i
    exact real_of_test (b i) e

end Cert.QLinear

end
-- ==== Proof.RefValue.lean ====
/-
  The reference's result is the linear layer over the quantized operands.

  Read one operation at a time, the reference's result at (r, o) is
      (the sum over k of x(r, k) · (w(o, k) + (Qw(o, k) − w(o, k)))) + (b(o) + (Qb(o) − b(o))),
  where Qw and Qb are the quantize-dequantize stages of the weight and of the bias. The weight and the bias hold
  real numbers, so each straight-through term t + (Q − t) is Q, and the result is the linear layer of x over Qw, Qb.
-/
import proofs.«121457_j55851754717325_1_alg».proof.Proof.Gen.ReferenceIdeal.Read
import proofs.«121457_j55851754717325_1_alg».proof.Proof.Spec
import Idealize.ShloMosaic.PureOps.Ideal.Laws
import Idealize.ShloMosaic.Lib.ValueIdx

noncomputable section

open scoped BigOperators

namespace Cert.QLinear.Ref

open Cert.ReferenceIdeal Cert.ReferenceIdeal.Read Cert.QLinear Idealize.ShloMosaic Idealize.ShloMosaic.ValueIdx

/-- The left operand of the product is read at (r, k). -/
theorem lidx_eq (r : Fin 524288) (o k : Fin 256) : lidx_main_v22 (ix2 r o) k = ix2 r k :=
  funext fun a => by match a with | ⟨0, _⟩ => rfl | ⟨1, _⟩ => rfl

/-- The right operand of the product is read at (o, k): the weight matrix is output-major. -/
theorem ridx_eq (r : Fin 524288) (o k : Fin 256) : ridx_main_v22 (ix2 r o) k = ix2 o k :=
  funext fun a => by match a with | ⟨0, _⟩ => rfl | ⟨1, _⟩ => rfl

/-- The bias, broadcast to a row and then down the rows, is read at o. -/
theorem bidx_eq (r : Fin 524288) (o : Fin 256) : idx_main_v23 (idx_main_v24 (ix2 r o)) = ix1 o :=
  funext fun a => by match a with | ⟨0, _⟩ => rfl

/-- The straight-through weight is the quantized weight, entry by entry, when the weight holds real numbers. -/
theorem ste_weight (w : FVec Ideal S256x256 .f32) (hw : ∀ i, w i ≠ ⊤ ∧ w i ≠ ⊥) (j : S256x256.Idx) :
    val_main_v10 (F := Ideal) w j = val_main_v8 (F := Ideal) w j := by
  rw [val_main_v10_apply, val_main_v9_apply]
  exact add_sub_cancel_of_real _ _ (hw j).1 (hw j).2

/-- The straight-through bias is the quantized bias, entry by entry, when the bias holds real numbers. -/
theorem ste_bias (b : FVec Ideal S256 .f32) (hb : ∀ i, b i ≠ ⊤ ∧ b i ≠ ⊥) (j : S256.Idx) :
    val_main_v21 (F := Ideal) b j = val_main_v19 (F := Ideal) b j := by
  rw [val_main_v21_apply, val_main_v20_apply]
  exact add_sub_cancel_of_real _ _ (hb j).1 (hb j).2

/-- The reference's result array is the linear layer of x over the quantized weight and bias. -/
theorem result_eq (x : FVec Ideal S524288x256 .f32) (w : FVec Ideal S256x256 .f32) (b : FVec Ideal S256 .f32)
    (hw : ∀ i, w i ≠ ⊤ ∧ w i ≠ ⊥) (hb : ∀ i, b i ≠ ⊤ ∧ b i ≠ ⊥) :
    val_main_v25 (F := Ideal) x w b = linearOut x (val_main_v8 (F := Ideal) w) (val_main_v19 (F := Ideal) b) := by
  funext i
  obtain ⟨r, o, rfl⟩ : ∃ (r : Fin 524288) (o : Fin 256), i = ix2 r o := ⟨i 0, i 1, eq_ix2 i⟩
  rw [val_main_v25_apply, val_main_v22_apply, val_main_v24_apply, val_main_v23_apply, bidx_eq, ste_bias b hb, linearOut_at]
  refine congrArg₂ (fun u v : EReal => u + v) (Finset.sum_congr rfl fun k _ => ?_) rfl
  rw [lidx_eq, ridx_eq, ste_weight w hw]

end Cert.QLinear.Ref

end
-- ==== Proof.KernelHost.lean ====
/-
  What the host operations in front of the kernel leave in the two resident operands.

  Before the region the program quantizes the weight and the bias exactly as the reference does (scale by the
  largest absolute value over 127, round to nearest even, clamp to [-127, 127], scale back), then transposes the
  quantized weight to input-major and recasts the quantized bias as a one-row matrix. So the region finds, as its
  second operand, the transpose of the reference's quantized-weight stage, and as its third the row form of the
  reference's quantized-bias stage.
-/
import proofs.«121457_j55851754717325_1_alg».proof.Proof.Gen.KernelIdeal.Frame
import proofs.«121457_j55851754717325_1_alg».proof.Proof.Gen.ReferenceIdeal.Read
import Idealize.ShloMosaic.Lib.StableHlo.Run

noncomputable section

namespace Cert.QLinear.Host

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The quantized weight as the reference's stage computes it, of this program's weight argument. -/
abbrev qweight (c : Dev nD) : FVec Ideal S256x256 .f32 :=
  Cert.ReferenceIdeal.Read.val_main_v8 (F := Ideal) (m ((c : Thread nD τ).loc main_arg1))

/-- The quantized bias as the reference's stage computes it, of this program's bias argument. -/
abbrev qbias (c : Dev nD) : FVec Ideal S256 .f32 :=
  Cert.ReferenceIdeal.Read.val_main_v19 (F := Ideal) (m ((c : Thread nD τ).loc main_arg2))

set_option maxRecDepth 8192 in
set_option maxHeartbeats 2000000 in
/-- The region's second operand is the transposed quantized weight. -/
theorem weight_operand (c : Dev nD) :
    (V m c main_v18 : FVec Ideal S256x256 .f32)
      = transpose S256x256 [1, 0] (qweight m c) Facts₀.transposes_S256x256_S256x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxRecDepth 8192 in
set_option maxHeartbeats 2000000 in
/-- The region's third operand is the quantized bias as a one-row matrix. -/
theorem bias_operand (c : Dev nD) :
    (V m c main_v19 : FVec Ideal S1x256 .f32)
      = shapeCast S1x256 (qbias m c) Facts₀.shapeCasts_S256_S1x256 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.QLinear.Host

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Payload.lean ====
/-
  The kernel body's arithmetic, read at one entry of the output block.

  On an [8192, 256] block of activations `a`, the resident [256, 256] matrix `wt` (input-major: row k holds the
  weights of input k) and the resident [1, 256] bias row `brow`, the body stores, at (p, q),
      (the sum over k of a(p, k) · wt(k, q)) + brow(0, q):
  the narrowing of both operands to bf16 is the identity on the extended reals, the product into the zero
  accumulator is the plain sum of products, and the bias row is repeated down the rows.
-/
import proofs.«121457_j55851754717325_1_alg».proof.Proof.Gen.KernelIdeal.Skeleton
import proofs.«121457_j55851754717325_1_alg».proof.Proof.LibDot
import Idealize.ShloMosaic.Lib.Pipeline.Value
import Idealize.ShloMosaic.Lib.ValueIdx
import Idealize.ShloMosaic.PureOps.Ideal.Laws

noncomputable section

open scoped BigOperators

namespace Cert.QLinear.Body

open Cert.KernelIdeal Cert.KernelIdeal.Gen Idealize.ShloMosaic Idealize.ShloMosaic.ValueIdx

/-- The bias row repeated down the rows, at (p, q), is the row's entry (0, q). -/
theorem bias_rows_at (brow : FVec Ideal S1x256 .f32) (p : Fin 8192) (q : Fin 256) :
    broadcastTo S8192x256 brow Facts₀.broadcasts_S1x256_S8192x256 (ix2 p q) = brow (ix2 (0 : Fin 1) q) :=
  broadcastTo_apply brow _ (ix2 p q) (ix2 (0 : Fin 1) q) fun a => by
    match a with
    | ⟨0, _⟩ => show 0 = if (1 : Nat) = 1 then 0 else _; rw [if_pos rfl]
    | ⟨1, _⟩ => show q.val = if (256 : Nat) = 1 then 0 else q.val; rw [if_neg (by decide)]

/-- The stored value at (p, q): the inner product of row p of the block with column q of the matrix, plus the bias
    row at q. -/
theorem stored_at (a : Vec Ideal S8192x256 .f32) (wt : Vec Ideal S256x256 .f32) (brow : Vec Ideal S1x256 .f32)
    (p : Fin 8192) (q : Fin 256) :
    k0_pay1 (F := Ideal) a wt brow (ix2 p q) = (∑ k : Fin 256, a (ix2 p k) * wt (ix2 k q)) + brow (ix2 (0 : Fin 1) q) := by
  unfold k0_pay1
  rw [shapeCast_self, shapeCast_self]
  refine congrArg₂ (fun u v : EReal => u + v) ?_ (bias_rows_at brow p q)
  exact Cert.LibDot.matmul_zero_at dot_S8192x256_S256x256_S8192x256_1_0_0_1_n_n rfl rfl rfl rfl rfl rfl none _ _ p q

end Cert.QLinear.Body

end
-- ==== Proof.KernelValue.lean ====
/-
  The kernel's result array is the linear layer over the quantized operands.

  Grid point t stages rows [8192·t, 8192·(t+1)) of the activations, the whole transposed quantized weight and the
  whole bias row, and writes back the same rows of the result. At (p, q) of that block the body stores
      (the sum over k of x(8192·t + p, k) · wt(k, q)) + brow(0, q),
  and wt(k, q) is the quantized weight at (q, k), brow(0, q) the quantized bias at q: entry (8192·t + p, q) of the
  linear layer. The 64 blocks tile the rows, so the array after the run is the linear layer everywhere.
-/
import proofs.«121457_j55851754717325_1_alg».proof.Proof.Gen.KernelIdeal.Value
import proofs.«121457_j55851754717325_1_alg».proof.Proof.KernelHost
import proofs.«121457_j55851754717325_1_alg».proof.Proof.Payload
import proofs.«121457_j55851754717325_1_alg».proof.Proof.Spec
import Idealize.ShloMosaic.Lib.Pipeline.Value
import Idealize.ShloMosaic.Lib.ValueIdx

noncomputable section

open scoped BigOperators

namespace Cert.QLinear.Kernel

open Cert.KernelIdeal Cert.KernelIdeal.Gen Cert.KernelIdeal.Value Cert.QLinear Cert.QLinear.Host
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The linear layer of this program's activations over the quantized weight and bias of its arguments. -/
abbrev kernelOut (c : Dev nD) : S524288x256.Idx → EReal :=
  linearOut (m ((c : Thread nD τ).loc main_arg0)) (qweight m c) (qbias m c)

/-! ## One block, over plain arrays -/

/-- If a block holds rows [8192·n, 8192·(n+1)) of `X`, the matrix is `Q` transposed and the row is `QB`, then the
    body's stored value at (p, q) is the linear layer of `X` over `Q`, `QB` at (8192·n + p, q). -/
theorem block_entry (X : SX.Idx → EReal) (Q : SW.Idx → EReal) (QB : SB.Idx → EReal)
    (a : Vec Ideal S8192x256 .f32) (wt : Vec Ideal S256x256 .f32) (brow : Vec Ideal S1x256 .f32)
    (n : Nat) (hn : n < 64)
    (ha : ∀ (p : Fin 8192) (k : Fin 256), a (ix2 p k) = X (ix2 (⟨n * 8192 + p.val, by omega⟩ : Fin 524288) k))
    (hwt : ∀ k q : Fin 256, wt (ix2 k q) = Q (ix2 q k))
    (hb : ∀ q : Fin 256, brow (ix2 (0 : Fin 1) q) = QB (ix1 q))
    (p : Fin 8192) (q : Fin 256) :
    k0_pay1 (F := Ideal) a wt brow (ix2 p q)
      = linearOut X Q QB (ix2 (⟨n * 8192 + p.val, by omega⟩ : Fin 524288) q) := by
  rw [Body.stored_at, linearOut_at, hb]
  refine congrArg₂ (fun u v : EReal => u + v) (Finset.sum_congr rfl fun k _ => ?_) rfl
  rw [ha, hwt]

/-! ## The windows' blocks -/

theorem origin_zero : (![0, 0] : Fin 2 → Nat) = fun _ => 0 := funext fun a => by fin_cases a <;> rfl

/-- The printed index maps over the 64 grid points: the activations' and the result's block index is (t, 0), the two
    resident operands' is (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- What point `t` writes back is block `t` of the linear layer. -/
theorem flushed_eq (c : Dev nD) (t : Fin cfg0.N) :
    (dats m 0 c).flushed 3 t = ((cfg0.win 3).blk t).view.read (Elt Ideal) (kernelOut m c) := by
  rw [flushed3]
  unfold out0_3
  rw [View.canon_unit_zero origin_zero]
  simp only [View.ld_unit_zero (S := S8192x256) origin_zero, View.ld_unit_zero (S := S256x256) origin_zero,
    View.ld_unit_zero (S := S1x256) origin_zero]
  obtain ⟨e00, e01, e10, e11, e20, e21, e30, e31⟩ := index_facts t
  funext j
  obtain ⟨p, q, rfl⟩ : ∃ (p : Fin 8192) (q : Fin 256), j = ix2 p q := ⟨j 0, j 1, eq_ix2 j⟩
  show k0_pay1 (F := Ideal) (iblk m c 0 t) (iblk m c 1 t) (iblk m c 2 t) (ix2 p q)
      = kernelOut m c (((cfg0.win 3).blk t).view.emb (ix2 p q))
  refine (block_entry (m ((c : Thread nD τ).loc main_arg0)) (qweight m c) (qbias m c)
    (iblk m c 0 t) (iblk m c 1 t) (iblk m c 2 t) t.val (point_lt t) ?_ ?_ ?_ p q).trans ?_
  · intro p k
    show V m c main_arg0 (((cfg0.win 0).blk t).view.emb (ix2 p k)) = _
    rw [V_main_arg0]
    refine congrArg _ (funext fun a => Fin.ext ?_)
    match a with
    | ⟨0, _⟩ => show win0_0.index t (0 : Fin 2) * 8192 + 1 * p.val = t.val * 8192 + p.val; omega
    | ⟨1, _⟩ => show win0_0.index t (1 : Fin 2) * 256 + 1 * k.val = k.val; omega
  · intro k q
    show V m c main_v18 (((cfg0.win 1).blk t).view.emb (ix2 k q)) = _
    have hidx : ((cfg0.win 1).blk t).view.emb (ix2 k q) = ix2 k q := funext fun a => Fin.ext (by
      match a with
      | ⟨0, _⟩ => show win0_1.index t (0 : Fin 2) * 256 + 1 * k.val = k.val; omega
      | ⟨1, _⟩ => show win0_1.index t (1 : Fin 2) * 256 + 1 * q.val = q.val; omega)
    rw [hidx]
    refine (congrFun (weight_operand m c) (ix2 k q)).trans ?_
    exact transpose_apply [1, 0] _ _ (ix2 k q) (ix2 q k) fun b => by
      match b with
      | ⟨0, _⟩ => rfl
      | ⟨1, _⟩ => rfl
  · intro q
    show V m c main_v19 (((cfg0.win 2).blk t).view.emb (ix2 (0 : Fin 1) q)) = _
    have hidx : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 256 + 1 * q.val = q.val; omega)
    rw [hidx]
    refine (congrFun (bias_operand m c) (ix2 (0 : Fin 1) q)).trans ?_
    refine shapeCast_apply _ _ (ix2 (0 : Fin 1) q) (ix1 q) ?_
    rw [Shape.rowMajor_val_two, Shape.rowMajor_val_one]
    show q.val = 0 * 256 + q.val
    omega
  · refine congrArg (kernelOut m c) (funext fun a => Fin.ext ?_)
    match a with
    | ⟨0, _⟩ => show t.val * 8192 + p.val = win0_3.index t (0 : Fin 2) * 8192 + 1 * p.val; omega
    | ⟨1, _⟩ => show q.val = win0_3.index t (1 : Fin 2) * 256 + 1 * q.val; omega

/-! ## From blocks to the array -/

/-- An index of the result array is in point `t`'s block iff each coordinate is in the block's range on its axis. -/
theorem mem_blk (t : Fin cfg0.N) (i : S524288x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v20).slice (win0_3.rect t)).set ↔ _
  rw [View.set_slice_whole, Rect.mem_set_unit]
  exact Iff.rfl

/-- Every index of the result array lies in the block of the point that owns its row: row r belongs to point r / 8192. -/
theorem cover (i : S524288x256.Idx) :
    ∃ t : Fin cfg0.N, (cfg0.win 3).flush t = true ∧ i ∈ ((cfg0.win 3).blk t).view.set := by
  have hi0 : (i 0).val < 524288 := (i 0).isLt
  have hi1 : (i 1).val < 256 := (i 1).isLt
  have hN : (i 0).val / 8192 < cfg0.N := by rw [show cfg0.N = 64 from N_0]; omega
  obtain ⟨-, -, -, -, -, -, e30, e31⟩ := index_facts ⟨(i 0).val / 8192, hN⟩
  have e30' : win0_3.index ⟨(i 0).val / 8192, hN⟩ (0 : Fin 2) = (i 0).val / 8192 := e30
  refine ⟨⟨(i 0).val / 8192, hN⟩, flush0_3 _, ?_⟩
  rw [mem_blk]
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    omega
  | ⟨1, _⟩ =>
    show win0_3.index ⟨(i 0).val / 8192, hN⟩ (1 : Fin 2) * 256 ≤ (i 1).val
      ∧ (i 1).val < win0_3.index ⟨(i 0).val / 8192, hN⟩ (1 : Fin 2) * 256 + 256
    omega

/-- The result array after the run is the linear layer over the quantized operands. -/
theorem final (c : Dev nD) : (dats m 0 c).arrAt 3 cfg0.N = kernelOut m c :=
  (dats m 0 c).arrAt_eq_of_cover 3 (kernelOut m c) (fun t _ => flushed_eq m c t) cover

/-- The kernel's run: it terminates with the result array at the linear layer and the arguments unchanged. -/
theorem run : θ_run defs (onTc (τ := τ) (main (F := Ideal))) ⟨m, fun _ => 0, ρ⟩ fun r => ∀ c : Dev nD,
      r.2.mem ((c : Thread nD τ).loc main_v20) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.QLinear.Kernel

end
-- ==== Proof.lean ====
/-
  A quantization-aware linear layer: y = x · Qw(weight)ᵀ + Qb(bias) over x : [524288, 256], weight : [256, 256]
  (output-major), bias : [256], where Q is the per-tensor symmetric 8-bit quantize-dequantize
      Q(t) = clamp(round_to_even(t / s), −127, 127) · s,   s = max |t| / 127.

  The kernel quantizes weight and bias on the host, transposes the quantized weight to input-major, recasts the
  quantized bias as a one-row matrix, and then, for each of 64 blocks of 8192 rows, multiplies the block by the
  resident matrix into a zero accumulator (after narrowing both to bf16) and adds the bias row. The reference
  computes the same quantized operands but passes them on in straight-through form, t + (Q(t) − t), contracts x
  against the output-major matrix directly, and adds the bias broadcast over the rows.

  Over the extended reals the narrowing is the identity and a product into a zero accumulator is the plain sum of
  products, so both results at (r, o) are
      (the sum over k of x(r, k) · Qw(o, k)) + Qb(o)
  once t + (Q(t) − t) is replaced by Q(t). That step holds because every entry t of weight and bias is a real
  number (the precondition): for real t and any extended real q, t + (q − t) = q. Nothing is asked of x.

  Both sides keep the quantize-dequantize stage as the same unopened term, so no property of rounding, clamping or
  the scale (not even s ≠ 0) is used.
-/
import proofs.«121457_j55851754717325_1_alg».proof.Defs
import proofs.«121457_j55851754717325_1_alg».proof.Proof.Gen.Kernel
import proofs.«121457_j55851754717325_1_alg».proof.Proof.Gen.Kernel.Skeleton
import proofs.«121457_j55851754717325_1_alg».proof.Proof.Gen.Kernel.Launch
import proofs.«121457_j55851754717325_1_alg».proof.Proof.Gen.Kernel.Points
import proofs.«121457_j55851754717325_1_alg».proof.Proof.Gen.Kernel.Frame
import proofs.«121457_j55851754717325_1_alg».proof.Proof.Gen.KernelIdeal
import proofs.«121457_j55851754717325_1_alg».proof.Proof.Gen.KernelIdeal.Skeleton
import proofs.«121457_j55851754717325_1_alg».proof.Proof.Gen.KernelIdeal.Launch
import proofs.«121457_j55851754717325_1_alg».proof.Proof.Gen.KernelIdeal.Points
import proofs.«121457_j55851754717325_1_alg».proof.Proof.Gen.KernelIdeal.Frame
import proofs.«121457_j55851754717325_1_alg».proof.Proof.Gen.ReferenceIdeal
import proofs.«121457_j55851754717325_1_alg».proof.Proof.Gen.Pre_finite_inputs
import proofs.«121457_j55851754717325_1_alg».proof.Proof.Gen.KernelIdeal.Value
import proofs.«121457_j55851754717325_1_alg».proof.Proof.Gen.ReferenceIdeal.Run
import proofs.«121457_j55851754717325_1_alg».proof.Proof.Gen.ReferenceIdeal.Read
import proofs.«121457_j55851754717325_1_alg».proof.Proof.Finite
import proofs.«121457_j55851754717325_1_alg».proof.Proof.RefValue
import proofs.«121457_j55851754717325_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result array at the linear layer of x
    over the quantized weight and bias: the kernel block by block, the reference after its straight-through terms
    collapse on the real-valued weight and bias. -/
theorem algebraic : Cert.algebraic_KernelIdeal_ReferenceIdeal := by
  intro m ρ m' ρ' hpre hagree
  refine ⟨fun c => Cert.QLinear.Kernel.kernelOut m c, Cert.QLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hw, hb⟩ := Cert.QLinear.real_of_pre _ _ _ (hpre c)
  rw [(hagree c).1, (hagree c).2.1, (hagree c).2.2]
  exact (Cert.ReferenceIdeal.Read.val_main_v25_eq _ _ _).trans (Cert.QLinear.Ref.result_eq _ _ _ hw hb)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
